-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x1024 : Shape := ⟨2, ![128, 1024]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S8x4096x128 .f32) (main_arg1 : FVec F S128x1024 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S8x4096x128 : Shape := ⟨3, ![8, 4096, 128]⟩
abbrev S128x1024 : Shape := ⟨2, ![128, 1024]⟩
abbrev S32768x128 : Shape := ⟨2, ![32768, 128]⟩
abbrev S32768x1024 : Shape := ⟨2, ![32768, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S8x4096x1024 : Shape := ⟨3, ![8, 4096, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x4096x128, .f32⟩
  | .hbm, ⟨1, _⟩ => ⟨S128x1024, .f32⟩
  | .hbm, ⟨2, _⟩ => ⟨S32768x128, .f32⟩
  | .hbm, ⟨3, _⟩ => ⟨S32768x1024, .f32⟩
  | .hbm, ⟨4, _⟩ => ⟨S8x4096x1024, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S1024x1024, .f32⟩
  | .local _ .vmem, ⟨4, _⟩ => ⟨S1024x1024, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x4096x128_S32768x128 : S8x4096x128.ShapeCasts S32768x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  reduces_S1024x128_S1024 : S1024x128.Reduces [1] S1024
  shapeCasts_S1024_S1024x1 : S1024.ShapeCasts S1024x1
  reduces_S128x1024_S1024 : S128x1024.Reduces [0] S1024
  shapeCasts_S1024_S1x1024 : S1024.ShapeCasts S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S32768x1024_S8x4096x1024 : S32768x1024.ShapeCasts S8x4096x1024
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S32768x1024.size a
  hwx0_2 : ∀ i : grid0.Coords, EltTy.bits .f32 = 32 ∨ (Rect.block (s := S32768x1024) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x128 : Shape := ⟨3, ![8, 4096, 128]⟩
abbrev S128x1024 : Shape := ⟨2, ![128, 1024]⟩
abbrev S_ : Shape := ⟨0, ![]⟩
abbrev S8x4096 : Shape := ⟨2, ![8, 4096]⟩
abbrev S8x4096x1 : Shape := ⟨3, ![8, 4096, 1]⟩
abbrev S1024 : Shape := ⟨1, ![1024]⟩
abbrev S8x4096x1024 : Shape := ⟨3, ![8, 4096, 1024]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x1024, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S128x1024, .f32⟩
  | .hbm, ⟨7, _⟩ => ⟨S_, .f32⟩
  | .hbm, ⟨8, _⟩ => ⟨S1024, .f32⟩
  | .hbm, ⟨9, _⟩ => ⟨S8x4096x1024, .f32⟩
  | .hbm, ⟨10, _⟩ => ⟨S1x1x1024, .f32⟩
  | .hbm, ⟨11, _⟩ => ⟨S8x4096x1024, .f32⟩
  | .hbm, ⟨12, _⟩ => ⟨S8x4096x1024, .f32⟩
  | .hbm, ⟨13, _⟩ => ⟨S8x4096x1024, .f32⟩
  | .hbm, ⟨14, _⟩ => ⟨S_, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  reducesTo_S128x1024_S1024_d0 : S128x1024.ReducesTo [0] S1024
  bcast_S1024_S1x1x1024_2 : S1024.BroadcastsInDim S1x1x1024 (![2] : Fin 1 → Fin S1x1x1024.rank)
  bcast_S8x4096x1_S8x4096x1024_0_1_2 : S8x4096x1.BroadcastsInDim S8x4096x1024 (![0, 1, 2] : Fin 3 → Fin S8x4096x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x128_S128x1024_S8x4096x1024_2_0_01_1_n_n_wf : DotDims.WF S8x4096x128 S128x1024 S8x4096x1024 [2] [0] [0, 1] [1] [] []

variable [Facts₀]

def dot_S8x4096x128_S128x1024_S8x4096x1024_2_0_01_1_n_n : DotDims S8x4096x128 S128x1024 S8x4096x1024 where
  lhsContracting := [2]
  rhsContracting := [0]
  lhsNonContracting := [0, 1]
  rhsNonContracting := [1]
  lhsBatch := []
  rhsBatch := []
  wf := dot_S8x4096x128_S128x1024_S8x4096x1024_2_0_01_1_n_n_wf

class Facts : Prop extends Facts₀ where

variable [Facts]
-- ==== Proof.SqDist.lean ====
/-
  The squared Euclidean distance from every point x[b, n, :] (128 coordinates) to every prototype column w[:, u],
  in the expanded form both programs compute:

      |x[b,n,:]|² + |w[:,u]|² − 2 · ⟨x[b,n,:], w[:,u]⟩

  as ONE function of the two argument arrays, index by index, on the extended reals. The three sums run over the
  128 shared coordinates; the factor two is the float pattern of 2.0, which both programs print and which is
  therefore never evaluated.

  The kernel works on the points flattened to 32768 = 8 · 4096 rows (point (b, n) is row 4096·b + n) and its
  result is folded back to [8, 4096, 1024]; `rows` is the same formula over the flattened points, and
  `fold_rows` says that folding its result back gives `dist` of the unflattened points.
-/
import Idealize.ShloMosaic.PureOps.Ideal
import Idealize.ShloMosaic.Lib.ValueIdx
import Idealize.ShloMosaic.Lib.Pipeline.Value

noncomputable section

namespace Cert.SqDist

open Idealize.ShloMosaic Idealize.ShloMosaic.ValueIdx

abbrev SPts : Shape := ⟨3, ![8, 4096, 128]⟩
abbrev SProto : Shape := ⟨2, ![128, 1024]⟩
abbrev SOut : Shape := ⟨3, ![8, 4096, 1024]⟩
abbrev SRows : Shape := ⟨2, ![32768, 128]⟩
abbrev SFlat : Shape := ⟨2, ![32768, 1024]⟩

/-- The distance of point (b, n) to prototype u: |x|² + |w|² − 2⟨x, w⟩ over the 128 coordinates. -/
def distAt (x : FVec Ideal SPts .f32) (w : FVec Ideal SProto .f32) (b : Fin 8) (n : Fin 4096) (u : Fin 1024) : EReal :=
  ((∑ k : Fin 128, x (ix3 b n k) * x (ix3 b n k)) + ∑ k : Fin 128, w (ix2 k u) * w (ix2 k u))
    - Ideal.ofBits .f32 0x40000000#32 * ∑ k : Fin 128, x (ix3 b n k) * w (ix2 k u)

/-- The whole result array [8, 4096, 1024]. -/
def dist (x : FVec Ideal SPts .f32) (w : FVec Ideal SProto .f32) : FVec Ideal SOut .f32 :=
  fun i => distAt x w (i 0) (i 1) (i 2)

/-- The same formula for flattened points: row r against prototype u. -/
def rowsAt (xr : FVec Ideal SRows .f32) (w : FVec Ideal SProto .f32) (r : Fin 32768) (u : Fin 1024) : EReal :=
  ((∑ k : Fin 128, xr (ix2 r k) * xr (ix2 r k)) + ∑ k : Fin 128, w (ix2 k u) * w (ix2 k u))
    - Ideal.ofBits .f32 0x40000000#32 * ∑ k : Fin 128, xr (ix2 r k) * w (ix2 k u)

/-- The flattened result array [32768, 1024]. -/
def rows (xr : FVec Ideal SRows .f32) (w : FVec Ideal SProto .f32) : FVec Ideal SFlat .f32 :=
  fun j => rowsAt xr w (j 0) (j 1)

/-- Row 4096·b + n of the flattened points is point (b, n): the two have the same row-major position. -/
theorem flat_point (x : FVec Ideal SPts .f32) (h : SPts.ShapeCasts SRows) (b : Fin 8) (n : Fin 4096) (k : Fin 128)
    (hr : b.val * 4096 + n.val < 32768) :
    shapeCast SRows x h (ix2 ⟨b.val * 4096 + n.val, hr⟩ k) = x (ix3 b n k) :=
  shapeCast_apply x h _ _ (by
    rw [Shape.rowMajor_val_three, Shape.rowMajor_val_two]
    show (b.val * 4096 + n.val) * 128 + k.val = (b.val * 4096 + n.val) * 128 + k.val
    rfl)

/-- Folding the flattened result back: entry (b, n, u) is row 4096·b + n, column u, and that row of the flattened
    points is point (b, n), so the three sums are those of `distAt`. -/
theorem fold_rows (x : FVec Ideal SPts .f32) (w : FVec Ideal SProto .f32) (h : SPts.ShapeCasts SRows)
    (h' : SFlat.ShapeCasts SOut) :
    shapeCast SOut (rows (shapeCast SRows x h) w) h' = dist x w := by
  funext i
  have hb : (i 0).val < 8 := (i 0).isLt
  have hn : (i 1).val < 4096 := (i 1).isLt
  have hr : (i 0).val * 4096 + (i 1).val < 32768 := by omega
  refine (shapeCast_apply _ h' i (ix2 ⟨(i 0).val * 4096 + (i 1).val, hr⟩ (i 2)) (by
    rw [Shape.rowMajor_val_three, Shape.rowMajor_val_two]
    show ((i 0).val * 4096 + (i 1).val) * 1024 + (i 2).val = ((i 0).val * 4096 + (i 1).val) * 1024 + (i 2).val
    rfl)).trans ?_
  show rowsAt (shapeCast SRows x h) w ⟨(i 0).val * 4096 + (i 1).val, hr⟩ (i 2) = distAt x w (i 0) (i 1) (i 2)
  unfold rowsAt distAt
  simp only [flat_point x h (i 0) (i 1) _ hr]

end Cert.SqDist

end
-- ==== Proof.RefDist.lean ====
/-
  The reference computes `SqDist.dist`: read one operation at a time, its result at (b, n, u) is
  (0 + Σ_k x[b,n,k]²) broadcast along u, plus (0 + Σ_k w[k,u]²) broadcast along (b, n), minus the splat of 2.0 times the
  `dot_general` contracting the 128 coordinates. The two initial values are the float zero, which is the real 0, and
  each broadcast reads its operand at the coordinates it keeps — so the three sums are exactly those of `distAt`.
-/
import proofs.«124593_j11029476016273_1_alg».proof.Proof.Gen.ReferenceIdeal.Read
import proofs.«124593_j11029476016273_1_alg».proof.Proof.SqDist

noncomputable section

namespace Cert.RefDist

open Cert.ReferenceIdeal Cert.ReferenceIdeal.Read Idealize.ShloMosaic Idealize.ShloMosaic.ValueIdx

/-- Through the two broadcasts of |x|², term k of the sum at (b, n, u) sits at (b, n, k). -/
theorem sq_point_idx (i : S8x4096x1024.Idx) (k : Fin 128) :
    idx_main_v1 (idx_main_v2 (idx_main_v7 i)) k = ix3 (i 0) (i 1) k :=
  funext fun a => Fin.ext (by match a with | ⟨0, _⟩ => rfl | ⟨1, _⟩ => rfl | ⟨2, _⟩ => rfl)

/-- Through the two broadcasts of |w|², term k of the sum at (b, n, u) sits at (k, u). -/
theorem sq_proto_idx (i : S8x4096x1024.Idx) (k : Fin 128) :
    idx_main_v4 (idx_main_v6 (idx_main_v8 i)) k = ix2 k (i 2) :=
  funext fun a => Fin.ext (by match a with | ⟨0, _⟩ => rfl | ⟨1, _⟩ => rfl)

/-- The contraction's left factor k at (b, n, u) is x[b, n, k]; -/
theorem dot_point_idx (i : S8x4096x1024.Idx) (k : Fin 128) : lidx_main_v5 i k = ix3 (i 0) (i 1) k :=
  funext fun a => Fin.ext (by match a with | ⟨0, _⟩ => rfl | ⟨1, _⟩ => rfl | ⟨2, _⟩ => rfl)

/-- its right factor is w[k, u]. -/
theorem dot_proto_idx (i : S8x4096x1024.Idx) (k : Fin 128) : ridx_main_v5 i k = ix2 k (i 2) :=
  funext fun a => Fin.ext (by match a with | ⟨0, _⟩ => rfl | ⟨1, _⟩ => rfl)

/-- The reference's result, as a function of its two arguments, is the expanded squared distance. -/
theorem ref_eq_dist (x : FVec Ideal S8x4096x128 .f32) (w : FVec Ideal S128x1024 .f32) :
    val_main_v12 (F := Ideal) x w = Cert.SqDist.dist x w := by
  funext i
  rw [val_main_v12_apply, val_main_v9_apply, val_main_v11_apply, val_main_v7_apply, val_main_v8_apply,
    val_main_v2_apply, val_main_v6_apply, val_main_v1_apply, val_main_v4_apply, val_main_v10_apply,
    val_main_v5_apply, val_main_cst_1_apply, val_main_cst_apply, val_main_cst_0_apply]
  simp only [val_main_v0_apply, val_main_v3_apply, sq_point_idx, sq_proto_idx, dot_point_idx, dot_proto_idx,
    Ideal.ofBits_def, Ideal.mulf_def, Ideal.addf_def, Ideal.subf_def, Ideal.ofBits_zero_f32, zero_add]
  rfl

end Cert.RefDist

end
-- ==== Proof.BlockValue.lean ====
/-
  What the kernel body stores, index by index. From a block X of 1024 flattened points (1024 × 128) and the whole
  prototype matrix Wm (128 × 1024) the body forms

      rowsq[p] = Σ_k X[p,k]²      (a lane sum, kept as a 1024 × 1 column and broadcast along the lanes)
      colsq[q] = Σ_k Wm[k,q]²     (a sublane sum, kept as a 1 × 1024 row and broadcast along the sublanes)
      prod[p,q] = Σ_k X[p,k] · Wm[k,q]   (the matrix product into a zero accumulator; the narrowing of both operands to
                                           bf16 is the identity on exact values)

  and stores (rowsq[p] + colsq[q]) − 2 · prod[p,q] at (p, q). Each non-pointwise operation is read at an index by one
  small lemma over variables of the literal shapes; `stored_at` chains them.
-/
import proofs.«124593_j11029476016273_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelBlock

open Cert.KernelIdeal Cert.KernelIdeal.Gen Idealize.ShloMosaic Idealize.ShloMosaic.ValueIdx

/-- A vector of 1024 row values kept as a column [1024, 1] and broadcast along the lanes reads row p's value at (p, q). -/
theorem column_splat (s : FVec Ideal S1024 .f32) (h1 : S1024.ShapeCasts S1024x1) (h2 : S1024x1.Broadcasts S1024x1024)
    (p q : Fin 1024) : broadcastTo S1024x1024 (shapeCast S1024x1 s h1) h2 (ix2 p q) = s (ix1 p) := by
  refine (broadcastTo_apply _ h2 (ix2 p q) (ix2 p (0 : Fin 1)) (fun a => ?_)).trans ?_
  · match a with
    | ⟨0, _⟩ => show p.val = if (1024 : Nat) = 1 then 0 else p.val; rw [if_neg (by decide)]
    | ⟨1, _⟩ => show 0 = if (1 : Nat) = 1 then 0 else q.val; rw [if_pos rfl]
  · exact shapeCast_apply s h1 _ (ix1 p) (by
      rw [Shape.rowMajor_val_one, Shape.rowMajor_val_two]
      show p.val = p.val * 1 + 0
      omega)

/-- A vector of 1024 column values kept as a row [1, 1024] and broadcast along the sublanes reads column q's value at (p, q). -/
theorem row_splat (s : FVec Ideal S1024 .f32) (h1 : S1024.ShapeCasts S1x1024) (h2 : S1x1024.Broadcasts S1024x1024)
    (p q : Fin 1024) : broadcastTo S1024x1024 (shapeCast S1x1024 s h1) h2 (ix2 p q) = s (ix1 q) := by
  refine (broadcastTo_apply _ h2 (ix2 p q) (ix2 (0 : Fin 1) q) (fun a => ?_)).trans ?_
  · match a with
    | ⟨0, _⟩ => show 0 = if (1 : Nat) = 1 then 0 else p.val; rw [if_pos rfl]
    | ⟨1, _⟩ => show q.val = if (1024 : Nat) = 1 then 0 else q.val; rw [if_neg (by decide)]
  · exact shapeCast_apply s h1 _ (ix1 q) (by
      rw [Shape.rowMajor_val_one, Shape.rowMajor_val_two]
      show q.val = 0 * 1024 + q.val
      omega)

/-- The lane sum of a 1024 × 128 block at row p is the sum of that row's 128 entries. -/
theorem lane_sum (y : FVec Ideal S1024x128 .f32) (h : S1024x128.Reduces [1] S1024) (hφ : FKind.Formats .f32)
    (hacc : (0x00000000#32 : BitVec 32) = FKind.add.neutral .f32 hφ) (p : Fin 1024) :
    multiReduction .add [1] S1024 y 0x00000000#32 h hφ hacc (ix1 p) = ∑ k : Fin 128, y (ix2 p k) := by
  refine (Ideal.multiReduction_add_single y 0x00000000#32 h hφ hacc (ix1 p)).trans ?_
  refine Finset.sum_congr rfl fun k _ => congrArg y (funext fun a => Fin.ext ?_)
  match a with
  | ⟨0, _⟩ => rfl
  | ⟨1, _⟩ => rfl

/-- The sublane sum of the 128 × 1024 prototype matrix at column q is the sum of that column's 128 entries. -/
theorem sublane_sum (y : FVec Ideal S128x1024 .f32) (h : S128x1024.Reduces [0] S1024) (hφ : FKind.Formats .f32)
    (hacc : (0x00000000#32 : BitVec 32) = FKind.add.neutral .f32 hφ) (q : Fin 1024) :
    multiReduction .add [0] S1024 y 0x00000000#32 h hφ hacc (ix1 q) = ∑ k : Fin 128, y (ix2 k q) := by
  refine (Ideal.multiReduction_add_single y 0x00000000#32 h hφ hacc (ix1 q)).trans ?_
  refine Finset.sum_congr rfl fun k _ => congrArg y (funext fun a => Fin.ext ?_)
  match a with
  | ⟨0, _⟩ => rfl
  | ⟨1, _⟩ => rfl

/-! The matrix product: rows of the left operand against columns of the right, contracting the 128 shared coordinates. -/

theorem dot_left_row (i : S1024x1024.Idx) (r : dot_S1024x128_S128x1024_S1024x1024_1_0_0_1_n_n.contr.Idx) :
    (dot_S1024x128_S128x1024_S1024x1024_1_0_0_1_n_n.lhsIdx i r 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem dot_left_contr (i : S1024x1024.Idx) (r : dot_S1024x128_S128x1024_S1024x1024_1_0_0_1_n_n.contr.Idx) :
    (dot_S1024x128_S128x1024_S1024x1024_1_0_0_1_n_n.lhsIdx i r 1).val = (r ⟨0, by decide⟩).val :=
  dot_S1024x128_S128x1024_S1024x1024_1_0_0_1_n_n.lhsIdx_val_of_single rfl i r
theorem dot_right_contr (i : S1024x1024.Idx) (r : dot_S1024x128_S128x1024_S1024x1024_1_0_0_1_n_n.contr.Idx) :
    (dot_S1024x128_S128x1024_S1024x1024_1_0_0_1_n_n.rhsIdx i r 0).val = (r ⟨0, by decide⟩).val :=
  dot_S1024x128_S128x1024_S1024x1024_1_0_0_1_n_n.rhsIdx_val_of_single rfl i r
theorem dot_right_col (i : S1024x1024.Idx) (r : dot_S1024x128_S128x1024_S1024x1024_1_0_0_1_n_n.contr.Idx) :
    (dot_S1024x128_S128x1024_S1024x1024_1_0_0_1_n_n.rhsIdx i r 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The block product into the zero accumulator at (p, q): Σ_k A[p,k] · B[k,q]. -/
theorem block_product {φ₁ φ₂ : FTy} (A : FVec Ideal S1024x128 φ₁) (B : FVec Ideal S128x1024 φ₂) (p q : Fin 1024) :
    matmul dot_S1024x128_S128x1024_S1024x1024_1_0_0_1_n_n none A B (constant (F := Ideal) S1024x1024 .f32 0x00000000#32) (ix2 p q)
      = ∑ k : Fin 128, A (ix2 p k) * B (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact dot_left_row _ _
    | ⟨1, _⟩ => exact (dot_left_contr _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (dot_right_contr _ _).trans hk
    | ⟨1, _⟩ => exact dot_right_col _ _)
  rw [el, er]

/-- What the body stores at (p, q) of its output block, from the loaded block X and the loaded prototypes Wm. -/
theorem stored_at (X : Vec Ideal S1024x128 .f32) (Wm : Vec Ideal S128x1024 .f32) (p q : Fin 1024) :
    k0_pay1 (F := Ideal) X Wm (ix2 p q)
      = ((∑ k : Fin 128, X (ix2 p k) * X (ix2 p k)) + ∑ k : Fin 128, Wm (ix2 k q) * Wm (ix2 k q))
        - Ideal.ofBits .f32 0x40000000#32 * ∑ k : Fin 128, X (ix2 p k) * Wm (ix2 k q) := by
  unfold k0_pay1
  simp only [subf_apply, addf_apply, mulf_apply, broadcast_apply]
  refine congrArg₂ (· - ·) (congrArg₂ (· + ·) ?_ ?_) (congrArg₂ (· * ·) rfl ?_)
  · refine (column_splat _ _ _ p q).trans ((lane_sum _ _ _ _ p).trans (Finset.sum_congr rfl fun k _ => ?_))
    rw [mulf_apply, shapeCast_self]
  · refine (row_splat _ _ _ p q).trans ((sublane_sum _ _ _ _ q).trans (Finset.sum_congr rfl fun k _ => ?_))
    rw [mulf_apply]
  · refine (block_product _ _ p q).trans (Finset.sum_congr rfl fun k _ => ?_)
    rw [truncf_apply, truncf_apply, shapeCast_self]

end Cert.KernelBlock

end
-- ==== Proof.RowsArray.lean ====
/-
  From the blocks to the array. The grid has 32 points; point t loads rows 1024·t … 1024·t + 1023 of the flattened
  points and the whole prototype matrix, and writes back rows 1024·t … 1024·t + 1023 of the [32768, 1024] result. So
  what point t writes back is block t of ONE whole-array function, `SqDist.rows` of the flattened points and the
  prototypes as the region finds them; the 32 blocks cover every row (row r lies in block r / 1024), hence after the
  run the result array IS that function.
-/
import proofs.«124593_j11029476016273_1_alg».proof.Proof.Gen.KernelIdeal.Frame
import proofs.«124593_j11029476016273_1_alg».proof.Proof.BlockValue
import proofs.«124593_j11029476016273_1_alg».proof.Proof.SqDist

set_option maxRecDepth 16384

noncomputable section

namespace Cert.KernelRows

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The printed index maps over the 32 points: the point-block and the result block of point t are both block t along the
    rows and block 0 along the columns; the prototypes are always block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The stored block of a point, over variables of the literal shapes: if the loaded block X holds rows 1024·T … of the
    flattened points xr and the loaded matrix Wm is the prototype matrix w, entry (p, q) of what the body stores is the
    distance of row 1024·T + p to prototype q. -/
theorem stored_rows (X : Vec Ideal S1024x128 .f32) (Wm : Vec Ideal S128x1024 .f32)
    (xr : FVec Ideal Cert.SqDist.SRows .f32) (w : FVec Ideal Cert.SqDist.SProto .f32) (T : Nat)
    (p q : Fin 1024) (hr : T * 1024 + p.val < 32768)
    (hX : ∀ k : Fin 128, X (ix2 p k) = xr (ix2 ⟨T * 1024 + p.val, hr⟩ k))
    (hW : ∀ k : Fin 128, Wm (ix2 k q) = w (ix2 k q)) :
    k0_pay1 (F := Ideal) X Wm (ix2 p q) = Cert.SqDist.rowsAt xr w ⟨T * 1024 + p.val, hr⟩ q := by
  rw [Cert.KernelBlock.stored_at]
  unfold Cert.SqDist.rowsAt
  simp only [hX, hW]

/-- WHAT POINT t WRITES BACK is block t of `SqDist.rows` of the flattened points and the prototypes. -/
theorem flushed_eq (c : Dev nD) (t : Fin cfg0.N) :
    (dats m 0 c).flushed 2 t
      = ((cfg0.win 2).blk t).view.read (Elt Ideal) (Cert.SqDist.rows (V m c main_v0) (V m c main_arg1)) := by
  show (cfg0.win 2).cut (grid0.coords t) ((dats m 0 c).after 2 t) = _
  rw [after0_2]
  unfold out0_2
  rw [View.canon_unit_zero zero_offsets]
  simp only [View.ld_unit_zero (S := S1024x128) zero_offsets, View.ld_unit_zero (S := S128x1024) zero_offsets]
  obtain ⟨e00, e01, e10, e11, e20, e21⟩ := index_maps t
  have hN : grid0.N = 32 := N_0
  have ht : t.val < 32 := by have h : t.val < grid0.N := t.isLt; omega
  funext j
  have hj0 : (j 0).val < 1024 := (j 0).isLt
  have hj1 : (j 1).val < 1024 := (j 1).isLt
  have hr : t.val * 1024 + (j 0).val < 32768 := by omega
  show k0_pay1 (F := Ideal) (iblk m c 0 t) (iblk m c 1 t) j
      = Cert.SqDist.rows (V m c main_v0) (V m c main_arg1) (((cfg0.win 2).blk t).view.emb j)
  refine (congrArg (k0_pay1 (F := Ideal) (iblk m c 0 t) (iblk m c 1 t)) (eq_ix2 (n0 := 1024) (n1 := 1024) j)).trans ?_
  refine (stored_rows (iblk m c 0 t) (iblk m c 1 t) (V m c main_v0) (V m c main_arg1) t.val (j 0) (j 1) hr
    (fun k => ?_) (fun k => ?_)).trans ?_
  · show V m c main_v0 (((cfg0.win 0).blk t).view.emb (ix2 (j 0) k)) = V m c main_v0 (ix2 ⟨t.val * 1024 + (j 0).val, hr⟩ k)
    refine congrArg (V m c main_v0) (funext fun a => Fin.ext ?_)
    match a with
    | ⟨0, _⟩ => show win0_0.index t (0 : Fin 2) * 1024 + 1 * (j 0).val = t.val * 1024 + (j 0).val; omega
    | ⟨1, _⟩ => show win0_0.index t (1 : Fin 2) * 128 + 1 * k.val = k.val; omega
  · show V m c main_arg1 (((cfg0.win 1).blk t).view.emb (ix2 k (j 1))) = V m c main_arg1 (ix2 k (j 1))
    refine congrArg (V m c main_arg1) (funext fun a => Fin.ext ?_)
    match a with
    | ⟨0, _⟩ => show win0_1.index t (0 : Fin 2) * 128 + 1 * k.val = k.val; omega
    | ⟨1, _⟩ => show win0_1.index t (1 : Fin 2) * 1024 + 1 * (j 1).val = (j 1).val; omega
  · show Cert.SqDist.rowsAt (V m c main_v0) (V m c main_arg1) ⟨t.val * 1024 + (j 0).val, hr⟩ (j 1)
        = Cert.SqDist.rowsAt (V m c main_v0) (V m c main_arg1) ((((cfg0.win 2).blk t).view.emb j) 0) ((((cfg0.win 2).blk t).view.emb j) 1)
    refine congrArg₂ (Cert.SqDist.rowsAt (V m c main_v0) (V m c main_arg1)) (Fin.ext ?_) (Fin.ext ?_)
    · show t.val * 1024 + (j 0).val = win0_2.index t (0 : Fin 2) * 1024 + 1 * (j 0).val; omega
    · show (j 1).val = win0_2.index t (1 : Fin 2) * 1024 + 1 * (j 1).val; omega

/-- An index of the result array lies in point t's block iff each coordinate lies in the block's range on its axis. -/
theorem mem_block (t : Fin cfg0.N) (i : S32768x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- Every row of the result lies in some point's block: row r in that of point r / 1024. -/
theorem covered (i : S32768x1024.Idx) :
    ∃ t : Fin cfg0.N, (cfg0.win 2).flush t = true ∧ i ∈ ((cfg0.win 2).blk t).view.set := by
  have hi0 : (i 0).val < 32768 := (i 0).isLt
  have hi1 : (i 1).val < 1024 := (i 1).isLt
  have hN : grid0.N = 32 := N_0
  obtain ⟨t, ht⟩ : ∃ t : Fin cfg0.N, t.val = (i 0).val / 1024 :=
    ⟨⟨(i 0).val / 1024, by show (i 0).val / 1024 < grid0.N; omega⟩, rfl⟩
  obtain ⟨e00, e01, e10, e11, e20, e21⟩ := index_maps t
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- THE RESULT ARRAY after the run: the distances of all 32768 flattened points to all 1024 prototypes. -/
theorem final (c : Dev nD) :
    (dats m 0 c).arrAt 2 cfg0.N = Cert.SqDist.rows (V m c main_v0) (V m c main_arg1) :=
  (dats m 0 c).arrAt_eq_of_cover 2 (Cert.SqDist.rows (V m c main_v0) (V m c main_arg1)) (fun t _ => flushed_eq m c t) covered

end Cert.KernelRows

end
-- ==== Proof.KernelRun.lean ====
/-
  The idealized kernel program's run, read as a value. Around its one region the program reshapes: before it the
  points [8, 4096, 128] are flattened to [32768, 128] (point (b, n) becomes row 4096·b + n), after it the region's
  result [32768, 1024] is folded back to [8, 4096, 1024]. The region leaves `SqDist.rows` of the flattened points
  (Proof/RowsArray.lean), so the folded result is `SqDist.dist` of the points themselves (`SqDist.fold_rows`),
  and both argument arrays end as they were.
-/
import proofs.«124593_j11029476016273_1_alg».proof.Proof.Gen.KernelIdeal.Frame
import proofs.«124593_j11029476016273_1_alg».proof.Proof.RowsArray
import Idealize.ShloMosaic.Lib.StableHlo.Run

set_option maxRecDepth 16384

noncomputable section

namespace Cert.KernelRun

open Cert.KernelIdeal Cert.KernelIdeal.Gen Idealize.ShloMosaic Idealize.ShloMosaic.TcCoe
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The region finds the points flattened: the one host operation before it is the reshape of the first argument. -/
theorem flat_points (c : Dev nD) :
    (V m c main_v0 : S32768x128.Idx → EReal)
      = shapeCast S32768x128 (m ((c : Thread nD τ).loc main_arg0)) shapeCasts_S8x4096x128_S32768x128 := by
  show StableHlo.after hostOps0 (fun b => m (c, b)) (Proc.devRef .tc main_v0) = _
  after_results
  rfl

/-- The program's result is the region's result array folded back: the one host operation after the region is that
    reshape, and the region's array is what the pipeline left there. -/
theorem folded_result (c : Dev nD) :
    (Pipeline.afterTail₀ cfgs (dats m) 0 (V0 m) [hostOps1] c main_v2 : S8x4096x1024.Idx → EReal)
      = shapeCast S8x4096x1024 ((dats m 0 c).arrAt 2 cfg0.N) shapeCasts_S32768x1024_S8x4096x1024 := by
  unfold Pipeline.afterTail₀
  show StableHlo.after hostOps1 _ (Proc.devRef .tc main_v2) = _
  after_results
  exact congrArg (fun A => shapeCast S8x4096x1024 A shapeCasts_S32768x1024_S8x4096x1024)
    (Pipeline.withArrays_arr spec0 launch0.win.arr_inj c (V0 m c) (fun w => (dats m 0 c).arrAt w cfg0.N) 2)

/-- So the program's result is the squared distance of every point to every prototype. -/
theorem result_eq (c : Dev nD) :
    (Pipeline.afterTail₀ cfgs (dats m) 0 (V0 m) [hostOps1] c main_v2 : S8x4096x1024.Idx → EReal)
      = Cert.SqDist.dist (m ((c : Thread nD τ).loc main_arg0)) (m ((c : Thread nD τ).loc main_arg1)) := by
  rw [folded_result, Cert.KernelRows.final, flat_points, V_main_arg1]
  exact Cert.SqDist.fold_rows _ _ _ _

/-- Every weakly fair execution of the idealized kernel program terminates with the result at `SqDist.dist` of the
    two arguments and the arguments unchanged. -/
theorem run : θ_run defs (onTc (τ := τ) (main (F := Ideal))) ⟨m, fun _ => 0, ρ⟩ fun r => ∀ c : Dev nD,
      r.2.mem ((c.tc : Thread nD τ).loc main_v2)
        = Cert.SqDist.dist (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelRun

end
-- ==== Proof.lean ====
/-
  Squared Euclidean distances to a set of prototypes: for points x : f32[8, 4096, 128] and prototype columns
  w : f32[128, 1024] both programs return, at (b, n, u),

      Σ_k x[b,n,k]²  +  Σ_k w[k,u]²  −  2 · Σ_k x[b,n,k] · w[k,u]        (k over the 128 coordinates),

  the expansion of Σ_k (x[b,n,k] − w[k,u])². The kernel flattens the points to 32768 rows, computes the expansion on
  32 row blocks of 1024 (a lane sum, a sublane sum and a matrix product per block) and folds the result back; the
  reference does the same three sums on the host with broadcasts. On the extended reals the two are the same terms in
  the same order: a sum started from the float zero is the plain sum, the kernel's narrowing of the product's operands
  is the identity, and the factor 2.0 is the same float pattern on both sides. No law beyond that is used, so the
  precondition (finite inputs) is never opened.

  Proof/SqDist.lean states the function (`dist`) and its flattened form (`rows`); Proof/RefDist.lean reads the
  reference as `dist`; Proof/BlockValue.lean reads what the kernel body stores at an index; Proof/RowsArray.lean
  assembles the 32 blocks into `rows`; Proof/KernelRun.lean adds the two reshapes around the region. The ideal pass
  rewrote nothing, so the idealization claim is trivial.
-/
import proofs.«124593_j11029476016273_1_alg».proof.Defs
import proofs.«124593_j11029476016273_1_alg».proof.Proof.Gen.Kernel
import proofs.«124593_j11029476016273_1_alg».proof.Proof.Gen.Kernel.Skeleton
import proofs.«124593_j11029476016273_1_alg».proof.Proof.Gen.Kernel.Launch
import proofs.«124593_j11029476016273_1_alg».proof.Proof.Gen.Kernel.Points
import proofs.«124593_j11029476016273_1_alg».proof.Proof.Gen.Kernel.Frame
import proofs.«124593_j11029476016273_1_alg».proof.Proof.Gen.KernelIdeal
import proofs.«124593_j11029476016273_1_alg».proof.Proof.Gen.KernelIdeal.Skeleton
import proofs.«124593_j11029476016273_1_alg».proof.Proof.Gen.KernelIdeal.Launch
import proofs.«124593_j11029476016273_1_alg».proof.Proof.Gen.KernelIdeal.Points
import proofs.«124593_j11029476016273_1_alg».proof.Proof.Gen.KernelIdeal.Frame
import proofs.«124593_j11029476016273_1_alg».proof.Proof.Gen.ReferenceIdeal
import proofs.«124593_j11029476016273_1_alg».proof.Proof.Gen.ReferenceIdeal.Run
import proofs.«124593_j11029476016273_1_alg».proof.Proof.Gen.ReferenceIdeal.Read
import proofs.«124593_j11029476016273_1_alg».proof.Proof.Gen.Pre_finite_inputs
import proofs.«124593_j11029476016273_1_alg».proof.Proof.SqDist
import proofs.«124593_j11029476016273_1_alg».proof.Proof.RefDist
import proofs.«124593_j11029476016273_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the two arguments, both programs end with `SqDist.dist` of them. -/
theorem algebraic : Cert.algebraic_KernelIdeal_ReferenceIdeal := by
  intro m ρ m' ρ' _ hagree
  refine ⟨fun c => Cert.SqDist.dist (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.RefDist.ref_eq_dist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
